-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x512 : Shape := ⟨3, ![16, 4096, 512]⟩
abbrev S512x512 : Shape := ⟨2, ![512, 512]⟩
abbrev S512 : Shape := ⟨1, ![512]⟩
abbrev S_ : Shape := ⟨0, ![]⟩

class Facts : Prop where
  bcast_S_S16x4096x512 : S_.BroadcastsInDim S16x4096x512 (![] : Fin 0 → Fin S16x4096x512.rank)
  reducesTo_S16x4096x512_S_d0_1_2 : S16x4096x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S16x4096x512 .f32) (main_arg1 : FVec F S512x512 .f32) (main_arg2 : FVec F S512 .f32) : IVec S_ 1 :=
  let main_v0 : FVec F S16x4096x512 .f32 := Host.absf main_arg0
  let main_cst : FVec F S_ .f32 := constant S_ .f32 0x7F800000#32
  let main_v1 : FVec F S16x4096x512 .f32 := broadcastInDim S16x4096x512 ![] bcast_S_S16x4096x512 main_cst
  let main_v2 : IVec S16x4096x512 1 := cmpf .olt main_v0 main_v1
  let main_c : IVec S_ 1 := constantI S_ 1 1#1
  let main_v3 : IVec S_ 1 := (fun x v => Host.reduce IntOp.andi x v reducesTo_S16x4096x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S16x4096x512 : Shape := ⟨3, ![16, 4096, 512]⟩
abbrev S512x512 : Shape := ⟨2, ![512, 512]⟩
abbrev S512 : Shape := ⟨1, ![512]⟩
abbrev S65536x512 : Shape := ⟨2, ![65536, 512]⟩
abbrev S_ : Shape := ⟨0, ![]⟩
abbrev S1x512 : Shape := ⟨2, ![1, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 29
  | .vmem => 6
  | .smem => 0
  | _ => 0

abbrev bufTy : (tb : Table) → Fin (tcTables nBuf tb) → BufTy
  | .hbm, ⟨0, _⟩ => ⟨S16x4096x512, .f32⟩
  | .hbm, ⟨1, _⟩ => ⟨S512x512, .f32⟩
  | .hbm, ⟨2, _⟩ => ⟨S512, .f32⟩
  | .hbm, ⟨3, _⟩ => ⟨S65536x512, .f32⟩
  | .hbm, ⟨4, _⟩ => ⟨S512x512, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S512x512, .f32⟩
  | .hbm, ⟨12, _⟩ => ⟨S512x512, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S512x512, .f32⟩
  | .hbm, ⟨17, _⟩ => ⟨S512x512, .f32⟩
  | .hbm, ⟨18, _⟩ => ⟨S_, .f32⟩
  | .hbm, ⟨19, _⟩ => ⟨S512x512, .f32⟩
  | .hbm, ⟨20, _⟩ => ⟨S512x512, .f32⟩
  | .hbm, ⟨21, _⟩ => ⟨S512x512, .f32⟩
  | .hbm, ⟨22, _⟩ => ⟨S512x512, .f32⟩
  | .hbm, ⟨23, _⟩ => ⟨S512x512, .f32⟩
  | .hbm, ⟨24, _⟩ => ⟨S512x512, .f32⟩
  | .hbm, ⟨25, _⟩ => ⟨S512x512, .bf16⟩
  | .hbm, ⟨26, _⟩ => ⟨S1x512, .f32⟩
  | .hbm, ⟨27, _⟩ => ⟨S65536x512, .f32⟩
  | .hbm, ⟨28, _⟩ => ⟨S16x4096x512, .f32⟩
  | .local _ .vmem, ⟨0, _⟩ => ⟨S1024x512, .f32⟩
  | .local _ .vmem, ⟨1, _⟩ => ⟨S1024x512, .f32⟩
  | .local _ .vmem, ⟨2, _⟩ => ⟨S512x512, .bf16⟩
  | .local _ .vmem, ⟨3, _⟩ => ⟨S1x512, .f32⟩
  | .local _ .vmem, ⟨4, _⟩ => ⟨S1024x512, .f32⟩
  | .local _ .vmem, ⟨5, _⟩ => ⟨S1024x512, .f32⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_cst_3 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x4096x512_S65536x512 : S16x4096x512.ShapeCasts S65536x512
  reducesTo_S512x512_S_d0_1 : S512x512.ReducesTo [0, 1] S_
  h_S_ : 0 < S_.numel
  bcast_S_S512x512 : S_.BroadcastsInDim S512x512 (![] : Fin 0 → Fin S512x512.rank)
  transposes_S512x512_S512x512_1_0 : S512x512.Transposes [1, 0] S512x512
  bitsLt_bf16_f32 : FTy.bits .bf16 < FTy.bits .f32
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S1024 : S1024x512.Reduces [1] S1024
  shapeCasts_S1024_S1024x1 : S1024.ShapeCasts S1024x1
  broadcasts_S1024x1_S1024x512 : S1024x1.Broadcasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S65536x512_S16x4096x512 : S65536x512.ShapeCasts S16x4096x512
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S65536x512.size a
  hwx0_0 : ∀ i : grid0.Coords, EltTy.bits .f32 = 32 ∨ (Rect.block (s := S65536x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S65536x512.size a
  hwx0_3 : ∀ i : grid0.Coords, EltTy.bits .f32 = 32 ∨ (Rect.block (s := S65536x512) S1024x512.size (cc0_transform_3 i) (hinb0_3 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x4096x512 : Shape := ⟨3, ![16, 4096, 512]⟩
abbrev S512x512 : Shape := ⟨2, ![512, 512]⟩
abbrev S512 : Shape := ⟨1, ![512]⟩
abbrev S_ : Shape := ⟨0, ![]⟩
abbrev S16x4096 : Shape := ⟨2, ![16, 4096]⟩
abbrev S16x4096x1 : Shape := ⟨3, ![16, 4096, 1]⟩
abbrev S1x1x512 : Shape := ⟨3, ![1, 1, 512]⟩

abbrev nBuf : Space → Nat
  | .hbm => 63
  | .vmem => 0
  | .smem => 0
  | _ => 0

abbrev bufTy : (tb : Table) → Fin (tcTables nBuf tb) → BufTy
  | .hbm, ⟨0, _⟩ => ⟨S16x4096x512, .f32⟩
  | .hbm, ⟨1, _⟩ => ⟨S512x512, .f32⟩
  | .hbm, ⟨2, _⟩ => ⟨S512, .f32⟩
  | .hbm, ⟨3, _⟩ => ⟨S16x4096x512, .f32⟩
  | .hbm, ⟨4, _⟩ => ⟨S_, .f32⟩
  | .hbm, ⟨5, _⟩ => ⟨S16x4096, .f32⟩
  | .hbm, ⟨6, _⟩ => ⟨S16x4096x1, .f32⟩
  | .hbm, ⟨7, _⟩ => ⟨S_, .f32⟩
  | .hbm, ⟨8, _⟩ => ⟨S16x4096x1, .f32⟩
  | .hbm, ⟨9, _⟩ => ⟨S16x4096x1, .f32⟩
  | .hbm, ⟨10, _⟩ => ⟨S_, .f32⟩
  | .hbm, ⟨11, _⟩ => ⟨S16x4096x1, .f32⟩
  | .hbm, ⟨12, _⟩ => ⟨S16x4096x1, .f32⟩
  | .hbm, ⟨13, _⟩ => ⟨S16x4096x1, .f32⟩
  | .hbm, ⟨14, _⟩ => ⟨S16x4096x512, .f32⟩
  | .hbm, ⟨15, _⟩ => ⟨S16x4096x512, .f32⟩
  | .hbm, ⟨16, _⟩ => ⟨S1x1x512, .f32⟩
  | .hbm, ⟨17, _⟩ => ⟨S16x4096x512, .f32⟩
  | .hbm, ⟨18, _⟩ => ⟨S16x4096x512, .f32⟩
  | .hbm, ⟨19, _⟩ => ⟨S16x4096x512, .f32⟩
  | .hbm, ⟨20, _⟩ => ⟨S_, .f32⟩
  | .hbm, ⟨21, _⟩ => ⟨S16x4096, .f32⟩
  | .hbm, ⟨22, _⟩ => ⟨S16x4096x1, .f32⟩
  | .hbm, ⟨23, _⟩ => ⟨S_, .f32⟩
  | .hbm, ⟨24, _⟩ => ⟨S16x4096x1, .f32⟩
  | .hbm, ⟨25, _⟩ => ⟨S16x4096x1, .f32⟩
  | .hbm, ⟨26, _⟩ => ⟨S_, .f32⟩
  | .hbm, ⟨27, _⟩ => ⟨S16x4096x1, .f32⟩
  | .hbm, ⟨28, _⟩ => ⟨S16x4096x1, .f32⟩
  | .hbm, ⟨29, _⟩ => ⟨S16x4096x512, .f32⟩
  | .hbm, ⟨30, _⟩ => ⟨S16x4096x512, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S16x4096x512, .f32⟩
  | .hbm, ⟨35, _⟩ => ⟨S16x4096x512, .f32⟩
  | .hbm, ⟨36, _⟩ => ⟨S_, .f32⟩
  | .hbm, ⟨37, _⟩ => ⟨S16x4096x512, .f32⟩
  | .hbm, ⟨38, _⟩ => ⟨S16x4096x512, .f32⟩
  | .hbm, ⟨39, _⟩ => ⟨S16x4096x512, .f32⟩
  | .hbm, ⟨40, _⟩ => ⟨S16x4096x512, .f32⟩
  | .hbm, ⟨41, _⟩ => ⟨S16x4096x512, .f32⟩
  | .hbm, ⟨42, _⟩ => ⟨S512x512, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S512x512, .f32⟩
  | .hbm, ⟨50, _⟩ => ⟨S512x512, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S512x512, .f32⟩
  | .hbm, ⟨55, _⟩ => ⟨S512x512, .f32⟩
  | .hbm, ⟨56, _⟩ => ⟨S_, .f32⟩
  | .hbm, ⟨57, _⟩ => ⟨S512x512, .f32⟩
  | .hbm, ⟨58, _⟩ => ⟨S512x512, .f32⟩
  | .hbm, ⟨59, _⟩ => ⟨S512x512, .f32⟩
  | .hbm, ⟨60, _⟩ => ⟨S512x512, .f32⟩
  | .hbm, ⟨61, _⟩ => ⟨S512x512, .f32⟩
  | .hbm, ⟨62, _⟩ => ⟨S16x4096x512, .f32⟩
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_cst_6 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_cst_8 : Ref sig .tc := ⟨.hbm, 45, rfl⟩
abbrev main_v28 : Ref sig .tc := ⟨.hbm, 46, rfl⟩
abbrev main_cst_9 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_10 : Ref sig .tc := ⟨.hbm, 51, rfl⟩
abbrev main_cst_11 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩

abbrev nD : Nat := 1
abbrev τ : Topo := Topo.v7x

variable {F : FTy → Type} [FloatOps F]

class Facts₀ : Prop where
  reducesTo_S16x4096x512_S16x4096_d2 : S16x4096x512.ReducesTo [2] S16x4096
  h_S_ : 0 < S_.numel
  bcast_S16x4096_S16x4096x1_0_1 : S16x4096.BroadcastsInDim S16x4096x1 (![0, 1] : Fin 2 → Fin S16x4096x1.rank)
  bcast_S_S16x4096x1 : S_.BroadcastsInDim S16x4096x1 (![] : Fin 0 → Fin S16x4096x1.rank)
  bcast_S16x4096x1_S16x4096x512_0_1_2 : S16x4096x1.BroadcastsInDim S16x4096x512 (![0, 1, 2] : Fin 3 → Fin S16x4096x512.rank)
  bcast_S512_S1x1x512_2 : S512.BroadcastsInDim S1x1x512 (![2] : Fin 1 → Fin S1x1x512.rank)
  bcast_S1x1x512_S16x4096x512_0_1_2 : S1x1x512.BroadcastsInDim S16x4096x512 (![0, 1, 2] : Fin 3 → Fin S16x4096x512.rank)
  bcast_S_S16x4096x512 : S_.BroadcastsInDim S16x4096x512 (![] : Fin 0 → Fin S16x4096x512.rank)
  reducesTo_S512x512_S_d0_1 : S512x512.ReducesTo [0, 1] S_
  bcast_S_S512x512 : S_.BroadcastsInDim S512x512 (![] : Fin 0 → Fin S512x512.rank)
  dot_S16x4096x512_S512x512_S16x4096x512_2_1_01_0_n_n_wf : DotDims.WF S16x4096x512 S512x512 S16x4096x512 [2] [1] [0, 1] [0] [] []

variable [Facts₀]

def dot_S16x4096x512_S512x512_S16x4096x512_2_1_01_0_n_n : DotDims S16x4096x512 S512x512 S16x4096x512 where
  lhsContracting := [2]
  rhsContracting := [1]
  lhsNonContracting := [0, 1]
  rhsNonContracting := [0]
  lhsBatch := []
  rhsBatch := []
  wf := dot_S16x4096x512_S512x512_S16x4096x512_2_1_01_0_n_n_wf

class Facts : Prop extends Facts₀ where

variable [Facts]
-- ==== Proof.RowQuant.lean ====
/-
  One row's activation quantisation, as a function of the row alone, on the extended reals.

  A row x = (x_0 … x_511) and a gain g = (g_0 … g_511) give
    m   = (Σ_k x_k²) / 512 + ε                         the mean square, shifted
    n_k = x_k · m^(-1/2) · g_k                          the normalised row
    s   = max(max_k |n_k|, ε) / 127                     the row's step
    d_k = round_half_even(min(127, max(-128, n_k / s))) · s    the row, snapped to the 8-bit grid and scaled back
  Every constant is kept as the 32-bit pattern both programs print; none is evaluated.
-/
import Idealize.ShloMosaic.PureOps.Ideal
import Idealize.ShloMosaic.PureOps.Ideal.Laws

noncomputable section

namespace Cert.RowQuant

open Idealize.ShloMosaic

/-- ε, the pattern of 1e-8 rounded to f32. -/
abbrev eps : EReal := Ideal.ofBits .f32 0x322BCC77#32
/-- 512, the row length. -/
abbrev c512 : EReal := Ideal.ofBits .f32 0x44000000#32
/-- 127, the top of the grid. -/
abbrev c127 : EReal := Ideal.ofBits .f32 0x42FE0000#32
/-- -128, the bottom of the grid. -/
abbrev cm128 : EReal := Ideal.ofBits .f32 0xC3000000#32
/-- -∞, where a running maximum starts. -/
abbrev ninf : EReal := Ideal.ofBits .f32 0xFF800000#32

/-- The row's mean square plus ε. -/
def meanSqEps (xr : Fin 512 → EReal) : EReal :=
  Ideal.div (∑ k : Fin 512, xr k * xr k) c512 + eps

/-- The normalised row: each entry over the root mean square, times the gain. -/
def normed (xr g : Fin 512 → EReal) (k : Fin 512) : EReal :=
  xr k * Ideal.rsqrt (meanSqEps xr) * g k

/-- The row's quantisation step: its largest magnitude, at least ε, over 127. -/
def step (xr g : Fin 512 → EReal) : EReal :=
  Ideal.div (max ((Finset.univ : Finset (Fin 512)).fold max ninf fun k => max (normed xr g k) (-normed xr g k)) eps) c127

/-- The row snapped to the grid and scaled back. -/
def deq (xr g : Fin 512 → EReal) (k : Fin 512) : EReal :=
  Ideal.liftRound Ideal.roundHalfEven (min c127 (max cm128 (Ideal.div (normed xr g k) (step xr g)))) * step xr g

end Cert.RowQuant

end
-- ==== Proof.LibColumn.lean ====
/-
  Two layout readings for a keepdims reduction: a vector cast to a column, and a column broadcast over
  the lanes. Stated at indices written by coordinates, for any element type and any extents.
-/
import Idealize.ShloMosaic.Lib.ValueIdx
import Idealize.ShloMosaic.Lib.Pipeline.Value

namespace Idealize.ShloMosaic.ValueIdx

variable {α : Type}

/-- An `[a]` array cast to the column `[a, 1]` reads, at `(i, u)`, the operand at `i`, whatever the unit
    coordinate `u`: row-major, entry `(i, u)` of the column is number `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KerRows.lean ====
/-
  The kernel's block, row by row.

  One grid point holds a [1024, 512] block of rows, the [1, 512] gain and the whole [512, 512] weight
  matrix. Every stage of the body, read at row p of the block, is the row function of RowQuant of that
  row and of the gain's one row: the lane sum is the row's sum, the lane maximum the row's maximum, a
  column broadcast over the lanes puts the row's scalar on every entry, and the matrix product into a
  zero accumulator is, at (p, o), the sum over k of the dequantised row at k times the weight at (k, o).
-/
import proofs.«136004_j55027120996833_1_alg».proof.Proof.Gen.KernelIdeal.Skeleton
import proofs.«136004_j55027120996833_1_alg».proof.Proof.RowQuant
import proofs.«136004_j55027120996833_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Rows

open Cert.KernelIdeal Cert.KernelIdeal.Gen Cert.RowQuant
open Idealize.ShloMosaic Idealize.ShloMosaic.ValueIdx

/-! ## The body's stages, named -/

section Stages

variable {F : FTy → Type} [FloatOps F]

/-- The block as loaded. -/
def kX (v0 : Vec F S1024x512 .f32) : FVec F S1024x512 .f32 := shapeCast S1024x512 v0 shapeCasts_S1024x512_S1024x512
/-- Each row's sum of squares. -/
def kSum (v0 : Vec F S1024x512 .f32) : FVec F S1024 .f32 :=
  multiReduction .add [1] S1024 (mulf (kX v0) (kX v0)) 0x00000000#32 reduces_S1024x512_S1024 (.inl rfl) rfl
/-- Each row's mean square plus ε, as a column. -/
def kMs (v0 : Vec F S1024x512 .f32) : FVec F S1024x1 .f32 :=
  addf (divf (shapeCast S1024x1 (kSum v0) shapeCasts_S1024_S1024x1) (broadcast S1024x1 (Scalar.ofBits .f32 0x44000000#32)))
    (broadcast S1024x1 (Scalar.ofBits .f32 0x322BCC77#32))
/-- The normalised block. -/
def kXn (v0 : Vec F S1024x512 .f32) (v12 : Vec F S1x512 .f32) : FVec F S1024x512 .f32 :=
  mulf (mulf (kX v0) (broadcastTo S1024x512 (rsqrt (kMs v0)) broadcasts_S1024x1_S1024x512))
    (broadcastTo S1024x512 (shapeCast S1x512 v12 shapeCasts_S1x512_S1x512) broadcasts_S1x512_S1024x512)
/-- Each row's largest magnitude. -/
def kMax (v0 : Vec F S1024x512 .f32) (v12 : Vec F S1x512 .f32) : FVec F S1024 .f32 :=
  multiReduction .maximumf [1] S1024 (absf (kXn v0 v12)) 0xFF800000#32 reduces_S1024x512_S1024 (.inl rfl) rfl
/-- Each row's step, as a column. -/
def kStep (v0 : Vec F S1024x512 .f32) (v12 : Vec F S1x512 .f32) : FVec F S1024x1 .f32 :=
  divf (maximumf (shapeCast S1024x1 (kMax v0 v12) shapeCasts_S1024_S1024x1) (broadcast S1024x1 (Scalar.ofBits .f32 0x322BCC77#32)))
    (broadcast S1024x1 (Scalar.ofBits .f32 0x42FE0000#32))
/-- The dequantised block. -/
def kDeq (v0 : Vec F S1024x512 .f32) (v12 : Vec F S1x512 .f32) : FVec F S1024x512 .f32 :=
  mulf (roundeven (minimumf (broadcast S1024x512 (Scalar.ofBits .f32 0x42FE0000#32))
      (maximumf (broadcast S1024x512 (Scalar.ofBits .f32 0xC3000000#32))
        (divf (kXn v0 v12) (broadcastTo S1024x512 (kStep v0 v12) broadcasts_S1024x1_S1024x512)))))
    (broadcastTo S1024x512 (kStep v0 v12) broadcasts_S1024x1_S1024x512)

/-- The body's one store is the product of the dequantised block, narrowed, with the weights, into zero. -/
theorem pay_eq (v0 : Vec F S1024x512 .f32) (v12 : Vec F S1x512 .f32) (v33 : Vec F S512x512 .bf16) :
    k0_pay1 v0 v12 v33 = matmul dot_S1024x512_S512x512_S1024x512_1_0_0_1_n_n none (truncf .bf16 (kDeq v0 v12) bitsLt_bf16_f32)
      (shapeCast S512x512 v33 shapeCasts_S512x512_S512x512) (constant S1024x512 .f32 0x00000000#32) := rfl

end Stages

/-! ## The stages at a row, on the extended reals -/

/-- Row p of a block. -/
abbrev brow (v0 : Vec Ideal S1024x512 .f32) (p : Fin 1024) : Fin 512 → EReal := fun k => v0 (ix2 p k)
/-- The gain's one row. -/
abbrev grow (v12 : Vec Ideal S1x512 .f32) : Fin 512 → EReal := fun k => v12 (ix2 (0 : Fin 1) k)

/-- The pointwise operations the library's index lemmas leave out, read at an index. -/
theorem rsqrt_at {s : Shape} (v : FVec Ideal s .f32) (i : s.Idx) : rsqrt v i = Ideal.rsqrt (v i) := rfl
theorem roundeven_at {s : Shape} (v : FVec Ideal s .f32) (i : s.Idx) :
    roundeven v i = Ideal.liftRound Ideal.roundHalfEven (v i) := rfl
theorem absf_at {s : Shape} (v : FVec Ideal s .f32) (i : s.Idx) : absf v i = max (v i) (-(v i)) := rfl

/-- Row p with lane k put back is (p, k). -/
private theorem lift_row (h : S1024x512.Reduces [1] S1024) (p : Fin 1024) (k : Fin (S1024x512.size 1)) :
    h.lift (ix1 p) k = ix2 p (⟨k.val, k.isLt⟩ : Fin 512) := by
  funext c; apply Fin.ext
  match c with | ⟨0, _⟩ => rfl | ⟨1, _⟩ => rfl

theorem kX_eq (v0 : Vec Ideal S1024x512 .f32) : kX v0 = v0 := shapeCast_self v0 _

/-- The lane sum at row p is the row's sum of squares. -/
theorem kSum_at (v0 : Vec Ideal S1024x512 .f32) (p : Fin 1024) :
    kSum v0 (ix1 p) = ∑ k : Fin 512, brow v0 p k * brow v0 p k :=
  (Ideal.multiReduction_add_single (mulf (kX v0) (kX v0)) 0x00000000#32 reduces_S1024x512_S1024 (.inl rfl) rfl (ix1 p)).trans
    (Finset.sum_congr rfl fun k _ => by rw [lift_row, kX_eq, mulf_apply]; rfl)

theorem kMs_at (v0 : Vec Ideal S1024x512 .f32) (p : Fin 1024) (u : Fin 1) :
    kMs v0 (ix2 p u) = meanSqEps (brow v0 p) := by
  unfold kMs
  rw [addf_apply, divf_apply, broadcast_apply, broadcast_apply, shapeCast_a_a1_apply, kSum_at]
  simp only [Ideal.ofBits_def]
  rfl

theorem kXn_at (v0 : Vec Ideal S1024x512 .f32) (v12 : Vec Ideal S1x512 .f32) (p : Fin 1024) (k : Fin 512) :
    kXn v0 v12 (ix2 p k) = normed (brow v0 p) (grow v12) k := by
  unfold kXn
  rw [mulf_apply, mulf_apply, broadcastTo_a1_ab_apply, broadcastTo_1b_ab_apply, shapeCast_self, kX_eq, rsqrt_at, kMs_at]
  rfl

/-- The lane maximum at row p, from -∞, is the row's largest magnitude. -/
theorem kMax_at (v0 : Vec Ideal S1024x512 .f32) (v12 : Vec Ideal S1x512 .f32) (p : Fin 1024) :
    kMax v0 v12 (ix1 p)
      = (Finset.univ : Finset (Fin 512)).fold max ninf fun k => max (normed (brow v0 p) (grow v12) k) (-normed (brow v0 p) (grow v12) k) :=
  (Ideal.multiReduction_maximumf_single (absf (kXn v0 v12)) 0xFF800000#32 reduces_S1024x512_S1024 (.inl rfl) rfl (ix1 p)).trans
    (congrArg (fun f => Finset.fold max ninf f (Finset.univ : Finset (Fin 512))) (funext fun k => by
      show absf (kXn v0 v12) (Shape.Reduces.lift reduces_S1024x512_S1024 (ix1 p) k) = _
      rw [lift_row, absf_at, kXn_at]
      rfl))

theorem kStep_at (v0 : Vec Ideal S1024x512 .f32) (v12 : Vec Ideal S1x512 .f32) (p : Fin 1024) (u : Fin 1) :
    kStep v0 v12 (ix2 p u) = step (brow v0 p) (grow v12) := by
  unfold kStep
  rw [divf_apply, maximumf_apply, broadcast_apply, broadcast_apply, shapeCast_a_a1_apply, kMax_at]
  simp only [Ideal.ofBits_def]
  rfl

theorem kDeq_at (v0 : Vec Ideal S1024x512 .f32) (v12 : Vec Ideal S1x512 .f32) (p : Fin 1024) (k : Fin 512) :
    kDeq v0 v12 (ix2 p k) = deq (brow v0 p) (grow v12) k := by
  unfold kDeq
  rw [mulf_apply, roundeven_at, minimumf_apply, maximumf_apply, divf_apply, broadcast_apply, broadcast_apply,
    broadcastTo_a1_ab_apply, kStep_at, kXn_at]
  simp only [Ideal.ofBits_def]
  rfl

end Cert.KernelIdeal.Rows

end
-- ==== Proof.KerMatmul.lean ====
/-
  The block's matrix product at an entry.

  The product contracts axis 1 of the [1024, 512] left operand with axis 0 of the [512, 512] right one, into a
  zero accumulator: at (p, o) it is the sum over k of left (p, k) times right (k, o). The contraction index
  has one axis; it is re-indexed by its coordinate.
-/
import proofs.«136004_j55027120996833_1_alg».proof.Proof.Gen.KernelIdeal
import Idealize.ShloMosaic.Lib.ValueIdx
import Idealize.ShloMosaic.PureOps.Ideal.Laws

noncomputable section

namespace Cert.KernelIdeal.Rows

open Cert.KernelIdeal Cert.KernelIdeal.Gen
open Idealize.ShloMosaic Idealize.ShloMosaic.ValueIdx

/-- The left operand's row coordinate is the output's. -/
theorem lhs_dot_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
/-- The left operand's lane coordinate is the contraction's. -/
theorem lhs_dot_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
/-- The right operand's row coordinate is the contraction's. -/
theorem rhs_dot_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
/-- The right operand's column coordinate is the output's. -/
theorem rhs_dot_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- Into a zero accumulator the product at (p, o) is Σ_k left (p, k) · right (k, o). -/
theorem matmul_at (l : FVec Ideal S1024x512 .bf16) (r : FVec Ideal S512x512 .bf16) (p : Fin 1024) (o : Fin 512) :
    matmul dot_S1024x512_S512x512_S1024x512_1_0_0_1_n_n none l r (constant S1024x512 .f32 0x00000000#32) (ix2 p o)
      = ∑ k : Fin 512, l (ix2 p k) * r (ix2 k o) := by
  simp only [matmul]
  rw [Ideal.matmul_constant_zero_apply, ← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx (ix2 p o) ((ValueIdx.contrEquiv1 dot_S1024x512_S512x512_S1024x512_1_0_0_1_n_n 512 rfl rfl).symm k) = ix2 p k := funext fun a => Fin.ext (by
    match a with
    | ⟨0, _⟩ => exact lhs_dot_0 _ _
    | ⟨1, _⟩ => exact (lhs_dot_1 _ _).trans hk)
  have er : dot_S1024x512_S512x512_S1024x512_1_0_0_1_n_n.rhsIdx (ix2 p o) ((ValueIdx.contrEquiv1 dot_S1024x512_S512x512_S1024x512_1_0_0_1_n_n 512 rfl rfl).symm k) = ix2 k o := funext fun a => Fin.ext (by
    match a with
    | ⟨0, _⟩ => exact (rhs_dot_0 _ _).trans hk
    | ⟨1, _⟩ => exact rhs_dot_1 _ _)
  rw [el, er]

end Cert.KernelIdeal.Rows

end
-- ==== Proof.RefRows.lean ====
/-
  The reference, row by row.

  The reference works on the whole [16, 4096, 512] array; each of its stages, read at row (b, s), is the
  row function of RowQuant of that row and of the gain vector: the sum over the last axis is the row's
  sum, the running maximum over the last axis the row's maximum, and the broadcasts put the row's
  scalars back on every entry of the row.
-/
import proofs.«136004_j55027120996833_1_alg».proof.Proof.Gen.ReferenceIdeal.Read
import proofs.«136004_j55027120996833_1_alg».proof.Proof.RowQuant
import Idealize.ShloMosaic.PureOps.Reduce

noncomputable section

namespace Cert.ReferenceIdeal.Rows

open Cert.ReferenceIdeal Cert.ReferenceIdeal.Gen Cert.ReferenceIdeal.Read Cert.RowQuant
open Idealize.ShloMosaic Idealize.ShloMosaic.ValueIdx

/-- Row (b, s) of the array. -/
abbrev row (x : FVec Ideal S16x4096x512 .f32) (b : Fin 16) (s : Fin 4096) : Fin 512 → EReal := fun k => x (ix3 b s k)
/-- The gain vector by its coordinate. -/
abbrev gain (g : FVec Ideal S512 .f32) : Fin 512 → EReal := fun k => g (ix1 k)

/-- The mean square plus ε of row (b, s): the sum over the last axis, over 512, plus ε. -/
theorem meanSq_at (x : FVec Ideal S16x4096x512 .f32) (b : Fin 16) (s : Fin 4096) (u : Fin 1) :
    val_main_v6 (F := Ideal) x (ix3 b s u) = meanSqEps (row x b s) := by
  have hidx : ∀ k : Fin 512, idx_main_v1 (idx_main_v2 (ix3 b s u)) k = ix3 b s k := fun k =>
    funext fun a => Fin.ext (by match a with | ⟨0, _⟩ => rfl | ⟨1, _⟩ => rfl | ⟨2, _⟩ => rfl)
  rw [val_main_v6_apply, val_main_v4_apply, val_main_v2_apply, val_main_v1_apply, val_main_v3_apply, val_main_v5_apply,
    val_main_cst_0_apply, val_main_cst_1_apply, val_main_cst_apply]
  simp only [val_main_v0_apply, hidx, Ideal.addf_def, Ideal.hostDivf_def, Ideal.mulf_def, Ideal.ofBits_def,
    Ideal.ofBits_zero_f32, zero_add]
  rfl

/-- A broadcast of a per-row scalar back over the row reads it at the row's one entry. -/
private theorem idx8 (b : Fin 16) (s : Fin 4096) (k : Fin 512) : idx_main_v8 (ix3 b s k) = ix3 b s (0 : Fin 1) :=
  funext fun a => Fin.ext (by match a with | ⟨0, _⟩ => rfl | ⟨1, _⟩ => rfl | ⟨2, _⟩ => rfl)
private theorem idx20 (b : Fin 16) (s : Fin 4096) (k : Fin 512) : idx_main_v20 (ix3 b s k) = ix3 b s (0 : Fin 1) :=
  funext fun a => Fin.ext (by match a with | ⟨0, _⟩ => rfl | ⟨1, _⟩ => rfl | ⟨2, _⟩ => rfl)
private theorem idx24 (b : Fin 16) (s : Fin 4096) (k : Fin 512) : idx_main_v24 (ix3 b s k) = ix3 b s (0 : Fin 1) :=
  funext fun a => Fin.ext (by match a with | ⟨0, _⟩ => rfl | ⟨1, _⟩ => rfl | ⟨2, _⟩ => rfl)
/-- The gain, broadcast over rows, reads its own coordinate. -/
private theorem idx11 (b : Fin 16) (s : Fin 4096) (k : Fin 512) : idx_main_v10 (idx_main_v11 (ix3 b s k)) = ix1 k :=
  funext fun a => Fin.ext (by match a with | ⟨0, _⟩ => rfl)
private theorem idx15 (b : Fin 16) (s : Fin 4096) (u : Fin 1) : idx_main_v15 (ix3 b s u) = ix2 b s :=
  funext fun a => Fin.ext (by match a with | ⟨0, _⟩ => rfl | ⟨1, _⟩ => rfl)

/-- The normalised entry (b, s, k): the entry times the row's inverse root mean square, times the gain at k. -/
theorem normed_at (x : FVec Ideal S16x4096x512 .f32) (g : FVec Ideal S512 .f32) (b : Fin 16) (s : Fin 4096) (k : Fin 512) :
    val_main_v12 (F := Ideal) x g (ix3 b s k) = normed (row x b s) (gain g) k := by
  rw [val_main_v12_apply, val_main_v9_apply, val_main_v8_apply, val_main_v7_apply, val_main_v11_apply, val_main_v10_apply,
    idx8, idx11, meanSq_at]
  simp only [Ideal.mulf_def, Ideal.hostUnary_rsqrt_def]
  rfl

/-- The running maximum over the last axis, from -∞, of the magnitudes of the normalised row. -/
theorem rowMax_at (x : FVec Ideal S16x4096x512 .f32) (g : FVec Ideal S512 .f32) (b : Fin 16) (s : Fin 4096) :
    val_main_v14 (F := Ideal) x g (ix2 b s)
      = (Finset.univ : Finset (Fin 512)).fold max ninf fun k => max (normed (row x b s) (gain g) k) (-normed (row x b s) (gain g) k) := by
  have h : S16x4096x512.Reduces [2] S16x4096 := by decide
  unfold val_main_v14
  rw [Host.reduce_eq_fold_single FloatOps.maximumf _ _ reducesTo_S16x4096x512_S16x4096_d2 h h_S_]
  have hf : (val_main_v13 (F := Ideal) x g ∘ h.lift (ix2 b s))
      = fun k : Fin 512 => max (normed (row x b s) (gain g) k) (-normed (row x b s) (gain g) k) := funext fun k => by
    have hl : h.lift (ix2 b s) k = ix3 b s (⟨k.val, k.isLt⟩ : Fin 512) := by
      funext c; apply Fin.ext
      match c with | ⟨0, _⟩ => rfl | ⟨1, _⟩ => rfl | ⟨2, _⟩ => rfl
    show val_main_v13 (F := Ideal) x g (h.lift (ix2 b s) k) = _
    rw [hl, val_main_v13_apply, normed_at]
    rfl
  exact congrArg (fun f => Finset.fold max ninf f (Finset.univ : Finset (Fin 512))) hf

/-- The row's step: its largest magnitude, at least ε, over 127. -/
theorem step_at (x : FVec Ideal S16x4096x512 .f32) (g : FVec Ideal S512 .f32) (b : Fin 16) (s : Fin 4096) (u : Fin 1) :
    val_main_v19 (F := Ideal) x g (ix3 b s u) = step (row x b s) (gain g) := by
  rw [val_main_v19_apply, val_main_v17_apply, val_main_v15_apply, val_main_v16_apply, val_main_v18_apply,
    val_main_cst_3_apply, val_main_cst_4_apply, idx15, rowMax_at]
  simp only [Ideal.hostDivf_def, Ideal.maximumf_def, Ideal.ofBits_def]
  rfl

/-- The dequantised entry (b, s, k). -/
theorem deq_at (x : FVec Ideal S16x4096x512 .f32) (g : FVec Ideal S512 .f32) (b : Fin 16) (s : Fin 4096) (k : Fin 512) :
    val_main_v25 (F := Ideal) x g (ix3 b s k) = deq (row x b s) (gain g) k := by
  rw [val_main_v25_apply, val_main_v23_apply, val_main_v22_apply, val_main_call0_v4_apply, val_main_call0_v3_apply,
    val_main_cst_6_apply, val_main_call0_v2_apply, val_main_call0_v1_apply, val_main_call0_v0_apply, val_main_cst_5_apply,
    val_main_v21_apply, val_main_v20_apply, val_main_v24_apply, idx20, idx24, step_at, normed_at]
  simp only [Ideal.mulf_def, Ideal.hostUnary_roundeven_def, Ideal.minimumf_def, Ideal.maximumf_def, Ideal.hostDivf_def,
    Ideal.ofBits_def]
  rfl

/-- The result at (b, s, o): the dequantised row (b, s) against row o of the dequantised weights. -/
theorem out_at (x : FVec Ideal S16x4096x512 .f32) (w : FVec Ideal S512x512 .f32) (g : FVec Ideal S512 .f32)
    (b : Fin 16) (s : Fin 4096) (o : Fin 512) :
    val_main_v36 (F := Ideal) x w g (ix3 b s o)
      = ∑ k : Fin 512, deq (row x b s) (gain g) k * val_main_v35 (F := Ideal) w (ix2 o k) := by
  rw [val_main_v36_apply]
  refine Finset.sum_congr rfl fun k _ => ?_
  have h1 : lidx_main_v36 (ix3 b s o) k = ix3 b s k :=
    funext fun a => Fin.ext (by match a with | ⟨0, _⟩ => rfl | ⟨1, _⟩ => rfl | ⟨2, _⟩ => rfl)
  have h2 : ridx_main_v36 (ix3 b s o) k = ix2 o k :=
    funext fun a => Fin.ext (by match a with | ⟨0, _⟩ => rfl | ⟨1, _⟩ => rfl)
  rw [h1, h2, deq_at]

end Cert.ReferenceIdeal.Rows

end
-- ==== Proof.KerValue.lean ====
/-
  The kernel program's result.

  The program merges the two leading axes of x into 65536 rows, computes the dequantised weights, transposes
  and narrows them, reshapes the gain to one row, runs 64 grid points of 1024 rows each, and splits the rows of
  the result back into [16, 4096]. Point t holds rows 1024·t … 1024·t + 1023; row r of the merged array is row
  (r / 4096, r % 4096) of x. So what point t writes back is block t of ONE array: the reference's result with
  its leading axes merged. The blocks tile the rows, the array ends holding that, and the last reshape undoes
  the merge.
-/
import proofs.«136004_j55027120996833_1_alg».proof.Proof.Gen.KernelIdeal.Frame
import proofs.«136004_j55027120996833_1_alg».proof.Proof.Gen.ReferenceIdeal.Read
import proofs.«136004_j55027120996833_1_alg».proof.Proof.KerRows
import proofs.«136004_j55027120996833_1_alg».proof.Proof.KerMatmul
import proofs.«136004_j55027120996833_1_alg».proof.Proof.RefRows
import Idealize.ShloMosaic.Lib.Pipeline.Value
import Idealize.ShloMosaic.Lib.ValueLayout
import Idealize.ShloMosaic.Lib.StableHlo.Run

noncomputable section

namespace Cert.KernelIdeal.Out

open Cert.KernelIdeal Cert.KernelIdeal.Gen Cert.KernelIdeal.Rows Cert.RowQuant
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The arrays, by their literal types -/

abbrev argX (c : Dev nD) : FVec Ideal S16x4096x512 .f32 := m ((c : Thread nD τ).loc main_arg0)
abbrev argW (c : Dev nD) : FVec Ideal S512x512 .f32 := m ((c : Thread nD τ).loc main_arg1)
abbrev argG (c : Dev nD) : FVec Ideal S512 .f32 := m ((c : Thread nD τ).loc main_arg2)

/-- The reference's result, of this program's argument arrays. -/
abbrev refOut (c : Dev nD) : FVec Ideal S16x4096x512 .f32 :=
  Cert.ReferenceIdeal.Read.val_main_v36 (F := Ideal) (argX m c) (argW m c) (argG m c)
/-- The dequantised weights, as the reference computes them. -/
abbrev wdq (c : Dev nD) : FVec Ideal S512x512 .f32 := Cert.ReferenceIdeal.Read.val_main_v35 (F := Ideal) (argW m c)

/-- What the output window's array ends holding: the reference's result with its two leading axes merged. -/
def outArr (c : Dev nD) : FVec Ideal S65536x512 .f32 :=
  shapeCast S65536x512 (refOut m c) shapeCasts_S16x4096x512_S65536x512

/-- The three arrays the region reads, as it finds them. -/
abbrev xarr (c : Dev nD) : Vec Ideal S65536x512 .f32 := V m c main_v0
abbrev warr (c : Dev nD) : Vec Ideal S512x512 .bf16 := V m c main_v12
abbrev garr (c : Dev nD) : Vec Ideal S1x512 .f32 := V m c main_v13

/-- The region's first array is x with its leading axes merged. -/
theorem xarr_eq (c : Dev nD) : xarr m c = shapeCast S65536x512 (argX m c) shapeCasts_S16x4096x512_S65536x512 := by
  show V m c main_v0 = _
  dsimp only [Gen.V, Gen.V0]
  simp only [Gen.hostOps0, Gen.hostOps0_1, Gen.hostOps0_2, Gen.hostOps0_3, List.flatten_cons, List.flatten_nil, List.append_nil, List.cons_append, List.nil_append]
  after_results
  rfl

/-- Its second is the dequantised weights, transposed (narrowing is the identity on the extended reals). -/
theorem warr_eq (c : Dev nD) :
    warr m c = truncf .bf16 (transpose S512x512 [1, 0] (wdq m c) transposes_S512x512_S512x512_1_0) bitsLt_bf16_f32 := by
  show V m c main_v12 = _
  dsimp only [Gen.V, Gen.V0]
  simp only [Gen.hostOps0, Gen.hostOps0_1, Gen.hostOps0_2, Gen.hostOps0_3, List.flatten_cons, List.flatten_nil, List.append_nil, List.cons_append, List.nil_append]
  after_results
  rfl

/-- Its third is the gain as one row. -/
theorem garr_eq (c : Dev nD) : garr m c = shapeCast S1x512 (argG m c) shapeCasts_S512_S1x512 := by
  show V m c main_v13 = _
  dsimp only [Gen.V, Gen.V0]
  simp only [Gen.hostOps0, Gen.hostOps0_1, Gen.hostOps0_2, Gen.hostOps0_3, List.flatten_cons, List.flatten_nil, List.append_nil, List.cons_append, List.nil_append]
  after_results
  rfl

/-! ## The arrays at an index -/

/-- Row r of the merged array is row (b, s) of x when r = 4096·b + s. -/
theorem xarr_at (c : Dev nD) (r : Fin 65536) (b : Fin 16) (s : Fin 4096) (hr : r.val = b.val * 4096 + s.val) (k : Fin 512) :
    xarr m c (ix2 r k) = argX m c (ix3 b s k) := by
  rw [xarr_eq]
  exact shapeCast_apply _ _ _ _ (by
    rw [Shape.rowMajor_val_three, Shape.rowMajor_val_two]
    show (b.val * 4096 + s.val) * 512 + k.val = r.val * 512 + k.val
    rw [hr])

/-- The same for the result. -/
theorem outArr_at (c : Dev nD) (r : Fin 65536) (b : Fin 16) (s : Fin 4096) (hr : r.val = b.val * 4096 + s.val) (o : Fin 512) :
    outArr m c (ix2 r o) = refOut m c (ix3 b s o) := by
  unfold outArr
  exact shapeCast_apply _ _ _ _ (by
    rw [Shape.rowMajor_val_three, Shape.rowMajor_val_two]
    show (b.val * 4096 + s.val) * 512 + o.val = r.val * 512 + o.val
    rw [hr])

/-- The transposed weights at (k, o) are the weights at (o, k). -/
theorem warr_at (c : Dev nD) (k o : Fin 512) : warr m c (ix2 k o) = wdq m c (ix2 o k) := by
  rw [warr_eq, truncf_apply, transpose_ix2_apply]

/-- The gain's one row at k is the gain at k. -/
theorem garr_at (c : Dev nD) (k : Fin 512) : garr m c (ix2 (0 : Fin 1) k) = argG m c (ix1 k) := by
  rw [garr_eq, shapeCast_a_1a_apply]

/-! ## A point's blocks -/

abbrev xblk (c : Dev nD) (t : Fin cfg0.N) : Vec Ideal S1024x512 .f32 := iblk m c 0 t
abbrev wblk (c : Dev nD) (t : Fin cfg0.N) : Vec Ideal S512x512 .bf16 := iblk m c 1 t
abbrev gblk (c : Dev nD) (t : Fin cfg0.N) : Vec Ideal S1x512 .f32 := iblk m c 2 t

/-- The index maps over the 64 points: the row blocks move with the point, the weights and the gain stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 64 := (show t.val < grid0.N from t.isLt).trans_eq N_0

/-- Row p of point t's block is row 1024·t + p of the merged array. -/
theorem xblk_at (c : Dev nD) (t : Fin cfg0.N) (p : Fin 1024) (k : Fin 512) (r : Fin 65536) (hr : r.val = t.val * 1024 + p.val) :
    xblk m c t (ix2 p k) = xarr m c (ix2 r k) := by
  obtain ⟨e0, e1, -⟩ := idx_facts t
  show V m c main_v0 (((cfg0.win 0).blk t).view.emb (ix2 p k)) = V m c main_v0 (ix2 r k)
  refine congrArg (V m c main_v0) (funext fun a => Fin.ext ?_)
  match a with
  | ⟨0, _⟩ => show win0_0.index t (0 : Fin 2) * 1024 + 1 * p.val = r.val; omega
  | ⟨1, _⟩ => show win0_0.index t (1 : Fin 2) * 512 + 1 * k.val = k.val; omega

/-- Every point holds the whole transposed weights. -/
theorem wblk_at (c : Dev nD) (t : Fin cfg0.N) (k o : Fin 512) : wblk m c t (ix2 k o) = warr m c (ix2 k o) := by
  obtain ⟨-, -, e0, e1, -⟩ := idx_facts t
  show V m c main_v12 (((cfg0.win 1).blk t).view.emb (ix2 k o)) = V m c main_v12 (ix2 k o)
  refine congrArg (V m c main_v12) (funext fun a => Fin.ext ?_)
  match a with
  | ⟨0, _⟩ => show win0_1.index t (0 : Fin 2) * 512 + 1 * k.val = k.val; omega
  | ⟨1, _⟩ => show win0_1.index t (1 : Fin 2) * 512 + 1 * o.val = o.val; omega

/-- Every point holds the gain's one row. -/
theorem gblk_at (c : Dev nD) (t : Fin cfg0.N) (k : Fin 512) : gblk m c t (ix2 (0 : Fin 1) k) = garr m c (ix2 (0 : Fin 1) k) := by
  obtain ⟨-, -, -, -, e0, e1, -⟩ := idx_facts t
  show V m c main_v13 (((cfg0.win 2).blk t).view.emb (ix2 (0 : Fin 1) k)) = V m c main_v13 (ix2 (0 : Fin 1) k)
  refine congrArg (V m c main_v13) (funext fun a => Fin.ext ?_)
  match a with
  | ⟨0, _⟩ => show win0_2.index t (0 : Fin 2) * 1 + 1 * 0 = 0; omega
  | ⟨1, _⟩ => show win0_2.index t (1 : Fin 2) * 512 + 1 * k.val = k.val; omega

/-! ## What a point writes back -/

/-- The body's store at (p, o): the dequantised row p against column o of the weights block. -/
theorem pay_at (v0 : Vec Ideal S1024x512 .f32) (v12 : Vec Ideal S1x512 .f32) (v33 : Vec Ideal S512x512 .bf16)
    (p : Fin 1024) (o : Fin 512) :
    k0_pay1 v0 v12 v33 (ix2 p o) = ∑ k : Fin 512, deq (brow v0 p) (grow v12) k * v33 (ix2 k o) := by
  rw [pay_eq, matmul_at]
  refine Finset.sum_congr rfl fun k _ => ?_
  rw [truncf_apply, kDeq_at, shapeCast_self]

theorem hz : (![0, 0] : Fin 2 → Nat) = fun _ => 0 := funext fun a => by fin_cases a <;> rfl

/-- Point t writes back block t of the merged result. -/
theorem flushed_eq (c : Dev nD) (t : Fin cfg0.N) :
    (dats m 0 c).flushed 3 t = ((cfg0.win 3).blk t).view.read (Elt Ideal) (outArr m c) := by
  show (cfg0.win 3).cut (grid0.coords t) ((dats m 0 c).after 3 t) = _
  rw [after0_3]
  unfold out0_3
  rw [View.canon_unit_zero hz]
  simp only [View.ld_unit_zero (S := S1024x512) hz, View.ld_unit_zero (S := S1x512) hz, View.ld_unit_zero (S := S512x512) hz]
  funext j
  obtain ⟨p, o, rfl⟩ : ∃ (p : Fin 1024) (o : Fin 512), j = ix2 p o := ⟨j 0, j 1, eq_ix2 j⟩
  have ht := point_lt t
  have hp := p.isLt
  obtain ⟨-, -, -, -, -, -, e0, e1⟩ := idx_facts t
  have hemb : ((cfg0.win 3).blk t).view.emb (ix2 p o) = ix2 (⟨t.val * 1024 + p.val, by omega⟩ : Fin 65536) o := by
    funext a; apply Fin.ext
    match a with
    | ⟨0, _⟩ => show win0_3.index t (0 : Fin 2) * 1024 + 1 * p.val = t.val * 1024 + p.val; omega
    | ⟨1, _⟩ => show win0_3.index t (1 : Fin 2) * 512 + 1 * o.val = o.val; omega
  show k0_pay1 (xblk m c t) (gblk m c t) (wblk m c t) (ix2 p o) = outArr m c (((cfg0.win 3).blk t).view.emb (ix2 p o))
  rw [hemb]
  refine (pay_at _ _ _ p o).trans ?_
  have hq : (t.val * 1024 + p.val) / 4096 < 16 := by omega
  have hm : (t.val * 1024 + p.val) % 4096 < 4096 := Nat.mod_lt _ (by decide)
  have hr : t.val * 1024 + p.val = (t.val * 1024 + p.val) / 4096 * 4096 + (t.val * 1024 + p.val) % 4096 := by omega
  rw [outArr_at m c ⟨t.val * 1024 + p.val, by omega⟩ ⟨(t.val * 1024 + p.val) / 4096, hq⟩ ⟨(t.val * 1024 + p.val) % 4096, hm⟩ hr o]
  refine Eq.trans ?_ (Cert.ReferenceIdeal.Rows.out_at (argX m c) (argW m c) (argG m c)
    ⟨(t.val * 1024 + p.val) / 4096, hq⟩ ⟨(t.val * 1024 + p.val) % 4096, hm⟩ o).symm
  have hx : brow (xblk m c t) p
      = Cert.ReferenceIdeal.Rows.row (argX m c) ⟨(t.val * 1024 + p.val) / 4096, hq⟩ ⟨(t.val * 1024 + p.val) % 4096, hm⟩ :=
    funext fun k => (xblk_at m c t p k ⟨t.val * 1024 + p.val, by omega⟩ rfl).trans (xarr_at m c _ _ _ hr k)
  have hg : grow (gblk m c t) = Cert.ReferenceIdeal.Rows.gain (argG m c) :=
    funext fun k => (gblk_at m c t k).trans (garr_at m c k)
  refine Finset.sum_congr rfl fun k _ => ?_
  rw [hx, hg, wblk_at, warr_at]

/-! ## The array after the run -/

/-- An index is in point t's block iff each coordinate is in the block's range on its axis. -/
theorem mem_blk (t : Fin cfg0.N) (i : S65536x512.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v14).slice (win0_3.rect t)).set ↔ _
  rw [View.set_slice_whole, Rect.mem_set_unit]
  exact Iff.rfl

/-- Row r lies in the block of point r / 1024: the 64 blocks tile the rows. -/
theorem cover (i : S65536x512.Idx) : ∃ t : Fin cfg0.N, (cfg0.win 3).flush t = true ∧ i ∈ ((cfg0.win 3).blk t).view.set := by
  have hi0 : (i 0).val < 65536 := (i 0).isLt
  have hi1 : (i 1).val < 512 := (i 1).isLt
  have hN : (i 0).val / 1024 < cfg0.N := by rw [show cfg0.N = 64 from N_0]; omega
  obtain ⟨-, -, -, -, -, -, e0, e1⟩ := idx_facts ⟨(i 0).val / 1024, hN⟩
  refine ⟨⟨(i 0).val / 1024, hN⟩, flush0_3 _, ?_⟩
  rw [mem_blk]
  intro a
  match a with
  | ⟨0, _⟩ =>
    show win0_3.index ⟨(i 0).val / 1024, hN⟩ (0 : Fin 2) * 1024 ≤ (i 0).val ∧ (i 0).val < win0_3.index ⟨(i 0).val / 1024, hN⟩ (0 : Fin 2) * 1024 + 1024
    rw [e0]
    show (i 0).val / 1024 * 1024 ≤ (i 0).val ∧ (i 0).val < (i 0).val / 1024 * 1024 + 1024
    omega
  | ⟨1, _⟩ =>
    show win0_3.index ⟨(i 0).val / 1024, hN⟩ (1 : Fin 2) * 512 ≤ (i 1).val ∧ (i 1).val < win0_3.index ⟨(i 0).val / 1024, hN⟩ (1 : Fin 2) * 512 + 512
    omega

/-- The output window's array ends holding the merged result. -/
theorem final (c : Dev nD) : (dats m 0 c).arrAt 3 cfg0.N = outArr m c :=
  (dats m 0 c).arrAt_eq_of_cover 3 (outArr m c) (fun t _ => flushed_eq m c t) cover

/-! ## The last reshape, and the run -/

theorem tail_eq (c : Dev nD) : Pipeline.afterTail₀ cfgs (dats m) 0 (V0 m) [hostOps1] c main_v15 = refOut m c := by
  unfold Pipeline.afterTail₀
  show StableHlo.after hostOps1 _ (Proc.devRef .tc main_v15) = _
  after_results
  have hw : Pipeline.withArrays (cfgs 0).spec c (V0 m c) (fun w => (dats m 0 c).arrAt w (cfgs 0).N) (Proc.devRef .tc main_v14)
      = outArr m c := (Pipeline.withArrays_arr spec0 launch0.win.arr_inj c _ _ 3).trans (final m c)
  funext i
  show shapeCast S16x4096x512 (Pipeline.withArrays (cfgs 0).spec c (V0 m c) (fun w => (dats m 0 c).arrAt w (cfgs 0).N)
    (Proc.devRef .tc main_v14)) shapeCasts_S65536x512_S16x4096x512 i = _
  rw [hw]
  unfold outArr
  exact congrFun (shapeCast_shapeCast (refOut m c) shapeCasts_S16x4096x512_S65536x512 shapeCasts_S65536x512_S16x4096x512) i

/-- The program runs; its result is the reference's result of its own arguments, which end unchanged. -/
theorem run : θ_run defs (onTc (τ := τ) (main (F := Ideal))) ⟨m, fun _ => 0, ρ⟩ fun r => ∀ c : Dev nD,
      r.2.mem ((c.tc : Thread nD τ).loc main_v15) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v15 (Pipeline.mem_restRefs_of main_v15 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Out

end
-- ==== Proof.lean ====
/-
  A linear layer on quantised activations and ternary weights, against its plain reference.

  Both programs compute, for every row x of the [16, 4096, 512] input,
      y_o = Σ_k d_k(x) · W_{o,k},
  where d(x) is the row normalised by its root mean square, scaled by the gain, snapped to the 8-bit grid
  with the row's own step and scaled back (RowQuant), and W is the weight matrix divided by its mean
  magnitude, clipped to [-1, 1], rounded, and scaled back. The kernel program merges the leading axes into
  65536 rows, builds W once on the host, transposed and narrowed to bf16, and lets each of 64 grid points
  do 1024 rows with one matrix product; the reference does the same arithmetic on the whole array and ends
  in one contraction over the last axis. On the extended reals narrowing is the identity, the lane sum and
  the host's sum are one sum, the lane maximum and the host's maximum one maximum, and the two contractions
  one sum of products; no law beyond these is needed, so the inputs' finiteness is never used.

  The kernel's result array is read off its frame run (KerValue), the reference's off its run; both are
  the same function of the arguments, the reference's own last stage.
-/
import proofs.«136004_j55027120996833_1_alg».proof.Defs
import proofs.«136004_j55027120996833_1_alg».proof.Proof.Gen.Kernel
import proofs.«136004_j55027120996833_1_alg».proof.Proof.Gen.Kernel.Skeleton
import proofs.«136004_j55027120996833_1_alg».proof.Proof.Gen.Kernel.Launch
import proofs.«136004_j55027120996833_1_alg».proof.Proof.Gen.Kernel.Points
import proofs.«136004_j55027120996833_1_alg».proof.Proof.Gen.Kernel.Frame
import proofs.«136004_j55027120996833_1_alg».proof.Proof.Gen.KernelIdeal
import proofs.«136004_j55027120996833_1_alg».proof.Proof.Gen.KernelIdeal.Skeleton
import proofs.«136004_j55027120996833_1_alg».proof.Proof.Gen.KernelIdeal.Launch
import proofs.«136004_j55027120996833_1_alg».proof.Proof.Gen.KernelIdeal.Points
import proofs.«136004_j55027120996833_1_alg».proof.Proof.Gen.KernelIdeal.Frame
import proofs.«136004_j55027120996833_1_alg».proof.Proof.Gen.ReferenceIdeal
import proofs.«136004_j55027120996833_1_alg».proof.Proof.Gen.Pre_finite_inputs
import proofs.«136004_j55027120996833_1_alg».proof.Proof.Gen.ReferenceIdeal.Run
import proofs.«136004_j55027120996833_1_alg».proof.Proof.Gen.ReferenceIdeal.Read
import proofs.«136004_j55027120996833_1_alg».proof.Proof.KerValue
import Idealize.ShloMosaic.Adequacy
import Idealize.ShloMosaic.Init

noncomputable section

namespace Cert.Proof

open Idealize.ShloMosaic Idealize.SL.Sem

/-- The kernel program runs and keeps its arguments, at the word level. -/
theorem frame_k : Cert.frame_Kernel := fun m ρ _ => Cert.Kernel.Gen.frame m ρ

/-- The same on the extended reals. -/
theorem frame_ki : Cert.frame_KernelIdeal := fun m ρ _ => Cert.KernelIdeal.Gen.frame m ρ

/-- The reference runs and keeps its arguments: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten to idealise the kernel. -/
theorem preserves : Cert.preserves_Kernel_KernelIdeal := trivial

/-- From memories that agree on the arguments both programs end with the reference's last stage of those
    arguments. -/
theorem algebraic : Cert.algebraic_KernelIdeal_ReferenceIdeal := by
  intro m ρ m' ρ' _ hagree
  refine ⟨fun c => Cert.KernelIdeal.Out.refOut m c, Cert.KernelIdeal.Out.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
